-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S5000x128 : Shape := ⟨2, ![5000, 128]⟩
abbrev S600000x128 : Shape := ⟨2, ![600000, 128]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S600000x64 : Shape := ⟨2, ![600000, 64]⟩
abbrev S1x64 : Shape := ⟨2, ![1, 64]⟩

abbrev nBuf : Space → Nat
  | .hbm => 85
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S_, .f32⟩
  | .hbm, ⟨21, _⟩ => ⟨S600000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000, .f32⟩
  | .hbm, ⟨47, _⟩ => ⟨S600000, .f32⟩
  | .hbm, ⟨48, _⟩ => ⟨S600000x1, .f32⟩
  | .hbm, ⟨49, _⟩ => ⟨S50000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S600000x128, .f32⟩
  | .hbm, ⟨60, _⟩ => ⟨S600000x128, .f32⟩
  | .hbm, ⟨61, _⟩ => ⟨S_, .f32⟩
  | .hbm, ⟨62, _⟩ => ⟨S50000x128, .f32⟩
  | .hbm, ⟨63, _⟩ => ⟨S600000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x64, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S600000x64, .f32⟩
  | .hbm, ⟨77, _⟩ => ⟨S600000x64, .f32⟩
  | .hbm, ⟨78, _⟩ => ⟨S600000x64, .f32⟩
  | .hbm, ⟨79, _⟩ => ⟨S_, .f32⟩
  | .hbm, ⟨80, _⟩ => ⟨S50000x64, .f32⟩
  | .hbm, ⟨81, _⟩ => ⟨S600000x1, .i32⟩
  | .hbm, ⟨82, _⟩ => ⟨S50000x64, .f32⟩
  | .hbm, ⟨83, _⟩ => ⟨S1x64, .f32⟩
  | .hbm, ⟨84, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_c_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  shapeCasts_S50000_S50000x1 : S50000.ShapeCasts S50000x1
  shapeCasts_S600000_S600000x1 : S600000.ShapeCasts S600000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  shapeCasts_S64_S1x64 : S64.ShapeCasts S1x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S50000x64 : Shape := ⟨2, ![50000, 64]⟩
abbrev S600000x64 : Shape := ⟨2, ![600000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x64, .f32⟩
  | 5 => ⟨S64, .f32⟩
  | 6 => ⟨S1x600000, .i32⟩
  | 7 => ⟨S600000, .i32⟩
  | 8 => ⟨S1x600000, .i32⟩
  | 9 => ⟨S600000, .i32⟩
  | 10 => ⟨S50000x128, .f32⟩
  | 11 => ⟨S_, .f32⟩
  | 12 => ⟨S50000, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S_, .f32⟩
  | 22 => ⟨S600000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S600000, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x1, .f32⟩
  | 57 => ⟨S600000x128, .f32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x64, .f32⟩
  | 75 => ⟨S_, .f32⟩
  | 76 => ⟨S50000, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S_, .f32⟩
  | 86 => ⟨S600000, .f32⟩
  | 87 => ⟨S50000, .f32⟩
  | 88 => ⟨S_, .f32⟩
  | 89 => ⟨S50000, .f32⟩
  | 90 => ⟨S50000, .f32⟩
  | 91 => ⟨S50000, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000, .f32⟩
  | 110 => ⟨S600000, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x64, .f32⟩
  | 120 => ⟨S600000x1, .f32⟩
  | 121 => ⟨S600000x64, .f32⟩
  | 122 => ⟨S600000x64, .f32⟩
  | 123 => ⟨S_, .f32⟩
  | 124 => ⟨S50000x64, .f32⟩
  | 125 => ⟨S600000x1, .i32⟩
  | 126 => ⟨S50000x64, .f32⟩
  | 127 => ⟨S50000, .f32⟩
  | _ => ⟨S50000x128, .f32⟩

abbrev hbmTy0_1 (i : Nat) : BufTy := match i % 128 with
  | 0 => ⟨S50000x1, .f32⟩
  | 1 => ⟨S50000x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

class Facts : Prop extends Facts₀ where

variable [Facts]
-- ==== Proof.Gcn.lean ====
/-
  Two graph-convolution layers over 50000 nodes and 600000 edges, as one function of the six argument arrays.

  For an edge list `e` (row 0 the sources, row 1 the destinations; a negative node index counts from the end), with
  `r i = (1 + #{edges into i})^(-1/2)`:

    layer W b h  =  A (h W) + (h W) · r² + b,     A y [i, :] = Σ_{edges s → i} y[s, :] · r s · r i,

  and the result is `layer W2 b2 (max (layer W1 b1 x) 0)`. The products `h W` are row-by-column sums over the 128 inner
  entries; `r²` is a column, `b` a row. The edge sums are the host's scatter-add of gathered rows, kept here as the
  operations themselves: both programs apply them to the same arrays, so nothing is ever read at an edge.
-/
import proofs.«120619_j32916629357419_1_alg».proof.Proof.Gen.KernelIdeal
import Idealize.ShloMosaic.PureOps.Ideal
import Idealize.ShloMosaic.Lib.ValueIdx

noncomputable section

namespace Cert.Gcn

open Idealize.ShloMosaic Idealize.ShloMosaic.ValueIdx Cert.KernelIdeal Cert.KernelIdeal.Facts₀ Cert.KernelIdeal.Facts

/-! ## The edge list's two rows, and node indices counted from the end -/

/-- Row 0 of the edge list: each edge's source node. -/
def srcRow (e : IVec S2x600000 32) : IVec S600000 32 :=
  shapeCast S600000 (extractStridedSlice S1x600000 ![0, 0] e slices_S2x600000_S1x600000_0_0) shapeCasts_S1x600000_S600000

/-- Row 1 of the edge list: each edge's destination node. -/
def dstRow (e : IVec S2x600000 32) : IVec S600000 32 :=
  shapeCast S600000 (extractStridedSlice S1x600000 ![1, 0] e slices_S2x600000_S1x600000_1_0) shapeCasts_S1x600000_S600000

/-- A negative node index `v` stands for `v + 50000`. -/
def wrap (v : IVec S600000 32) : IVec S600000 32 :=
  select (cmpi .slt v (broadcastInDim S600000 ![] bcast_S_S600000 (constantI S_ 32 0#32)))
    (addi v (broadcastInDim S600000 ![] bcast_S_S600000 (constantI S_ 32 50000#32))) v

/-- A list of node indices as the one-column index array a gather or scatter takes. -/
def col (v : IVec S600000 32) : IVec S600000x1 32 :=
  broadcastInDim S600000x1 ![0] bcast_S600000_S600000x1_0 v

/-! ## The normalisation: `r = (1 + in-degree)^(-1/2)` -/

/-- `r i`: one plus the number of edges into node `i`, to the power -1/2. -/
def invSqrtDeg (e : IVec S2x600000 32) : FVec Ideal S50000 .f32 :=
  Host.rsqrt (addf
    (Host.scatterAdd scatter_S50000_S600000x1_S600000_n_0_0_1
      (broadcastInDim S50000 ![] bcast_S_S50000 (constant S_ .f32 0x00000000#32))
      (col (wrap (dstRow e)))
      (broadcastInDim S600000 ![] bcast_S_S600000 (constant S_ .f32 0x3F800000#32)))
    (broadcastInDim S50000 ![] bcast_S_S50000 (constant S_ .f32 0x3F800000#32)))

/-- `r²` as a column: node `i`'s weight on its own row. -/
def selfWeight (e : IVec S2x600000 32) : FVec Ideal S50000x1 .f32 :=
  shapeCast S50000x1 (mulf (invSqrtDeg e) (invSqrtDeg e) : FVec Ideal S50000 .f32) shapeCasts_S50000_S50000x1

/-- `r s · r d` per edge `s → d`, as a column. -/
def edgeWeight (e : IVec S2x600000 32) : FVec Ideal S600000x1 .f32 :=
  shapeCast S600000x1
    (mulf (Host.gather gather_S50000_S600000x1_S600000_n_0_n_n_0_1_1 (invSqrtDeg e) (col (wrap (srcRow e))))
          (Host.gather gather_S50000_S600000x1_S600000_n_0_n_n_0_1_1 (invSqrtDeg e) (col (wrap (dstRow e)))) : FVec Ideal S600000 .f32)
    shapeCasts_S600000_S600000x1

/-! ## The sum over incoming edges -/

/-- Row `i` of the result: the sum, over the edges `s → i`, of row `s` of `y` times the edge's weight (128 columns). -/
def aggregate128 (y : FVec Ideal S50000x128 .f32) (e : IVec S2x600000 32) : FVec Ideal S50000x128 .f32 :=
  Host.scatterAdd scatter_S50000x128_S600000x1_S600000x128_1_0_0_1
    (broadcastInDim S50000x128 ![] bcast_S_S50000x128 (constant S_ .f32 0x00000000#32))
    (col (dstRow e))
    (mulf (Host.gather gather_S50000x128_S600000x1_S600000x128_1_0_n_n_0_1_1128 y (col (wrap (srcRow e))))
          (broadcastInDim S600000x128 ![0, 1] bcast_S600000x1_S600000x128_0_1 (edgeWeight e)))

/-- The same over 64 columns. -/
def aggregate64 (y : FVec Ideal S50000x64 .f32) (e : IVec S2x600000 32) : FVec Ideal S50000x64 .f32 :=
  Host.scatterAdd scatter_S50000x64_S600000x1_S600000x64_1_0_0_1
    (broadcastInDim S50000x64 ![] bcast_S_S50000x64 (constant S_ .f32 0x00000000#32))
    (col (dstRow e))
    (mulf (Host.gather gather_S50000x64_S600000x1_S600000x64_1_0_n_n_0_1_164 y (col (wrap (srcRow e))))
          (broadcastInDim S600000x64 ![0, 1] bcast_S600000x1_S600000x64_0_1 (edgeWeight e)))

/-! ## The dense parts -/

/-- Rows of `h` times columns of `w`: `(h w)[i, j] = Σ_k h[i, k] · w[k, j]`, 128 columns. -/
def project128 (h : FVec Ideal S50000x128 .f32) (w : FVec Ideal S128x128 .f32) : FVec Ideal S50000x128 .f32 :=
  fun i => ∑ k : Fin 128, h (ix2 (i 0) k) * w (ix2 k (i 1))

/-- Rows of `h` times columns of `w`, 64 columns. -/
def project64 (h : FVec Ideal S50000x128 .f32) (w : FVec Ideal S128x64 .f32) : FVec Ideal S50000x64 .f32 :=
  fun i => ∑ k : Fin 128, h (ix2 (i 0) k) * w (ix2 k (i 1))

/-- `max (a + y · d + b) 0`: the edge sums, the node's own row at its weight (`d` a column), the bias (`b` a row). -/
def combineRelu128 (a y : FVec Ideal S50000x128 .f32) (d : FVec Ideal S50000x1 .f32) (b : FVec Ideal S1x128 .f32) :
    FVec Ideal S50000x128 .f32 :=
  fun i => max (a i + y i * d (ix2 (i 0) (0 : Fin 1)) + b (ix2 (0 : Fin 1) (i 1))) 0

/-- `a + y · d + b` over 64 columns (the last layer has no `max`). -/
def combine64 (a y : FVec Ideal S50000x64 .f32) (d : FVec Ideal S50000x1 .f32) (b : FVec Ideal S1x64 .f32) :
    FVec Ideal S50000x64 .f32 :=
  fun i => a i + y i * d (ix2 (i 0) (0 : Fin 1)) + b (ix2 (0 : Fin 1) (i 1))

/-- A bias vector as a one-row array. -/
def biasRow128 (b : FVec Ideal S128 .f32) : FVec Ideal S1x128 .f32 := shapeCast S1x128 b shapeCasts_S128_S1x128
def biasRow64 (b : FVec Ideal S64 .f32) : FVec Ideal S1x64 .f32 := shapeCast S1x64 b shapeCasts_S64_S1x64

/-! ## The two layers -/

/-- The hidden layer: `max (A (x W1) + (x W1) · r² + b1) 0`. -/
def hidden (x : FVec Ideal S50000x128 .f32) (e : IVec S2x600000 32) (w1 : FVec Ideal S128x128 .f32)
    (b1 : FVec Ideal S128 .f32) : FVec Ideal S50000x128 .f32 :=
  combineRelu128 (aggregate128 (project128 x w1) e) (project128 x w1) (selfWeight e) (biasRow128 b1)

/-- The result: `A (h W2) + (h W2) · r² + b2` at `h` the hidden layer. -/
def output (x : FVec Ideal S50000x128 .f32) (e : IVec S2x600000 32) (w1 : FVec Ideal S128x128 .f32)
    (b1 : FVec Ideal S128 .f32) (w2 : FVec Ideal S128x64 .f32) (b2 : FVec Ideal S64 .f32) : FVec Ideal S50000x64 .f32 :=
  combine64 (aggregate64 (project64 (hidden x e w1 b1) w2) e) (project64 (hidden x e w1 b1) w2) (selfWeight e) (biasRow64 b2)

end Cert.Gcn

end
-- ==== Proof.ProjectHidden.lean ====
/- The first dense product, tile by tile: ten blocks of 5000 rows of `x`, each times the whole of `W1`, fill the 50000 × 128 array with `x W1`. -/
import proofs.«120619_j32916629357419_1_alg».proof.Proof.Gen.KernelIdeal.Frame
import proofs.«120619_j32916629357419_1_alg».proof.Proof.Gcn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjectHidden

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

-- the TensorCore's buffer contents when the region is entered
variable (V : (c : Dev nD) → (b : Ref sig .tc) → Buf (Elt Ideal) ((c : Thread nD τ).loc b))

/-- The zero offset of a whole-buffer access, as the constant function. -/
theorem hz : (![0, 0] : Fin 2 → Nat) = fun _ => 0 := funext fun a => by fin_cases a <;> rfl

/-! ## The tile's product at an index -/

/-- The left operand is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the summation index, -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summation index … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One tile: entry (r, s) of the body's payload is the sum over the 128 inner entries of row r of the left block times column s of the right one. -/
theorem pay_apply (x0 : Vec Ideal S5000x128 .f32) (x1 : Vec Ideal S128x128 .f32) (j : S5000x128.Idx) :
    k0_pay1 (F := Ideal) x0 x1 j = ∑ k : Fin 128, x0 (ix2 (j 0) k) * x1 (ix2 k (j 1)) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ix2 (j 0) k := funext fun a => Fin.ext (by
    match a with
    | ⟨0, _⟩ => exact lhs_row _ _
    | ⟨1, _⟩ => exact (lhs_col _ _).trans hk)
  have er : dot_S5000x128_S128x128_S5000x128_1_0_0_1_n_n.rhsIdx j ((ValueIdx.contrEquiv1 dot_S5000x128_S128x128_S5000x128_1_0_0_1_n_n 128 rfl rfl).symm k) = ix2 k (j 1) := funext fun a => Fin.ext (by
    match a with
    | ⟨0, _⟩ => exact (rhs_row _ _).trans hk
    | ⟨1, _⟩ => exact rhs_col _ _)
  rw [el, er]
  rfl

/-! ## From the tiles to the array -/

/-- The printed index maps, decided over the ten points: the left block and the output block sit at the same block row, every block column is 0, the right operand is the one whole block, and the block row is at most 9. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten block rows is some point's. -/
theorem idx_onto : ∀ q : Fin 10, ∃ t : Fin cfg0.N, win0_2.index t = ![q.val, 0] :=
  (by decide +kernel : ∀ q : Fin 10, ∃ t : Fin grid0.N, win0_2.index t = ![q.val, 0])

/-- At point `t`, entry `j` of the tile's product, its two blocks read off arrays `A` and `W`, is the entry of `A W` that `j` names in the output's block: the left block's rows are the output block's rows, its columns all 128; the right block is all of `W`. -/
theorem sum_blocks (t : Fin cfg0.N) (j : ((cfg0.win 2).xblock (grid0.coords t)).Idx)
    (A : FVec Ideal S50000x128 .f32) (W : FVec Ideal S128x128 .f32) :
    ∑ k : Fin 128, A (((cfg0.win 0).blk t).view.emb (ix2 (j 0) k)) * W (((cfg0.win 1).blk t).view.emb (ix2 k (j 1)))
      = project128 A W (((cfg0.win 2).blk t).view.emb j) := by
  obtain ⟨e0, e1, e2, e3, e4, e5⟩ := idx_facts t
  show _ = ∑ k : Fin 128, A (ix2 ((((cfg0.win 2).blk t).view.emb j) 0) k) * W (ix2 k ((((cfg0.win 2).blk t).view.emb j) 1))
  refine Finset.sum_congr rfl fun k _ => ?_
  have hj0 : (j 0).val < 5000 := (j 0).isLt
  have hj1 : (j 1).val < 128 := (j 1).isLt
  have hk : k.val < 128 := k.isLt
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]
  rfl

/-- What point `t` writes back is block `t` of the product of the two arrays the region was entered with. -/
theorem flushed_eq (c : Dev nD) (t : Fin cfg0.N) :
    (dat0 (F := Ideal) V c).flushed 2 t = ((cfg0.win 2).blk t).view.read (Elt Ideal) (project128 (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  funext j
  show k0_pay1 (F := Ideal) (iblk0 V c 0 t) (iblk0 V c 1 t) j = project128 (V c main_arg0) (V c main_arg2) (((cfg0.win 2).blk t).view.emb j)
  rw [pay_apply]
  exact sum_blocks t j (V c main_arg0) (V c main_arg2)

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Row `r` of the array lies in the block of the point whose block row is `r / 5000`: the ten blocks fill the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the ten tiles the output array holds the row-by-column products of the two arrays the region was entered with. -/
theorem final (c : Dev nD) :
    (dat0 (F := Ideal) V c).arrAt 2 cfg0.N = project128 (V c main_arg0) (V c main_arg2) :=
  (dat0 (F := Ideal) V c).arrAt_eq_of_cover 2 (project128 (V c main_arg0) (V c main_arg2)) (fun t _ => flushed_eq V c t) covered

end Cert.KernelIdeal.ProjectHidden

end
-- ==== Proof.CombineHidden.lean ====
/- The hidden layer's pointwise part, tile by tile: edge sums plus the node's own row at its weight plus the bias, cut off below at zero. -/
import proofs.«120619_j32916629357419_1_alg».proof.Proof.Gen.KernelIdeal.Frame
import proofs.«120619_j32916629357419_1_alg».proof.Proof.Gcn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineHidden

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

/-! ## One tile's arithmetic, entry by entry -/

/-- A column `[a, 1]` spread over `b` columns reads, at `(p, c)`, the column's entry in row `p`. -/
theorem spreadColumn_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(p, q)` of what one tile stores: `max (a + y · d + b) 0` with `d` read in row `p` of the column and `b` in
    column `q` of the row. The casts of a shape to itself change nothing, the two spreads read the column and the row,
    and the constant's word is the number zero. -/
theorem tile_apply (v0 : Vec Ideal S5000x1 .f32) (v4 : Vec Ideal S1x128 .f32) (v8 v10 : Vec Ideal S5000x128 .f32)
    (p : Fin 5000) (q : Fin 128) :
    k1_pay1 (F := Ideal) v0 v4 v8 v10 (ix2 p q)
      = max (v8 (ix2 p q) + v10 (ix2 p q) * v0 (ix2 p (0 : Fin 1)) + v4 (ix2 (0 : Fin 1) q)) 0 := by
  unfold k1_pay1
  simp only [shapeCast_self]
  show max (v8 (ix2 p q) + v10 (ix2 p q) * broadcastTo S5000x128 v0 broadcasts_S5000x1_S5000x128 (ix2 p q)
      + broadcastTo S5000x128 v4 broadcasts_S1x128_S5000x128 (ix2 p q)) (Ideal.ofBits .f32 0x00000000#32) = _
  rw [spreadColumn_apply v0 broadcasts_S5000x1_S5000x128 p q, broadcastTo_1b_ab_apply v4 broadcasts_S1x128_S5000x128 p q,
    Ideal.ofBits_zero_f32]

/-! ## Where each tile reads and writes -/

theorem origin2 : (![0, 0] : Fin 2 → Nat) = fun _ => 0 := funext fun a => by fin_cases a <;> rfl

/-- The block index maps over the ten grid points: the two full-width inputs and the column move down their arrays with the output
    tile, all in block column 0; the bias row stays at its one block. -/
theorem index_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Each of the ten row blocks of the output is some grid point's. -/
theorem index_onto : ∀ q : Fin 10, ∃ t : Fin cfg1.N, win1_4.index t = ![q.val, 0] :=
  (by decide +kernel : ∀ q : Fin 10, ∃ t : Fin grid1.N, win1_4.index t = ![q.val, 0])

-- the TensorCore's buffer contents when the region is entered
variable (V : (c : Dev nD) → (b : Ref sig .tc) → Buf (Elt Ideal) ((c : Thread nD τ).loc b))

/-- What grid point `t` writes back is its 5000 rows of `max (a + y · d + b) 0`: entry `(p, q)` of the tile sits in row
    `5000 · (block row) + p`, column `q` of each full-width array, the column's entry in that same row, the bias in column `q`. -/
theorem flushed_eq (c : Dev nD) (t : Fin cfg1.N) :
    (dat1 (F := Ideal) V c).flushed 4 t
      = ((cfg1.win 4).blk t).view.read (Elt Ideal) (combineRelu128 (V c main_v46) (V c main_v34) (V c main_v17) (V c main_v47)) := by
  show (cfg1.win 4).cut (grid1.coords t) ((dat1 (F := Ideal) V c).after 4 t) = _
  rw [after1_4]
  unfold out1_4
  rw [View.canon_unit_zero origin2]
  simp only [View.ld_unit_zero (S := S5000x1) origin2, View.ld_unit_zero (S := S1x128) origin2,
    View.ld_unit_zero (S := S5000x128) origin2]
  obtain ⟨e00, e01, e10, e11, e20, e21, e30, e31, e41, e40⟩ := index_facts t
  funext j
  obtain ⟨p, q, rfl⟩ : ∃ (p : Fin 5000) (q : Fin 128), j = ix2 p q := ⟨j 0, j 1, eq_ix2 j⟩
  refine (tile_apply (iblk1 V c 2 t) (iblk1 V c 3 t) (iblk1 V c 0 t) (iblk1 V c 1 t) p q).trans ?_
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have h2 : ((cfg1.win 2).blk t).view.emb (ix2 p (0 : Fin 1))
      = ix2 ((((cfg1.win 4).blk t).view.emb (ix2 p q)) 0) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix2 (0 : Fin 1) q)
      = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  have key : ∀ (A Y : S50000x128.Idx → EReal) (D : S50000x1.Idx → EReal) (B : S1x128.Idx → EReal),
      max (A (((cfg1.win 0).blk t).view.emb (ix2 p q))
          + Y (((cfg1.win 1).blk t).view.emb (ix2 p q)) * D (((cfg1.win 2).blk t).view.emb (ix2 p (0 : Fin 1)))
          + B (((cfg1.win 3).blk t).view.emb (ix2 (0 : Fin 1) q))) 0
        = combineRelu128 A Y D B (((cfg1.win 4).blk t).view.emb (ix2 p q)) := by
    intro A Y D B
    rw [h0, h1, h2, h3]
    rfl
  exact key (V c main_v46) (V c main_v34) (V c main_v17) (V c main_v47)

/-- A row-and-column pair is in grid point `t`'s tile iff each coordinate is in the tile's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v48).slice (win1_4.rect t)).set ↔ _
  rw [View.set_slice_whole, Rect.mem_set_unit]
  exact Iff.rfl

/-- Row `r` of the output lies in the tile of block row `r / 5000`: the ten tiles fill the array. -/
theorem covered (i : S50000x128.Idx) :
    ∃ t : Fin cfg1.N, (cfg1.win 4).flush t = true ∧ i ∈ ((cfg1.win 4).blk t).view.set := by
  have hi0 : (i 0).val < 50000 := idx2_lt0 i
  have hi1 : (i 1).val < 128 := idx2_lt1 i
  obtain ⟨t, ht⟩ := index_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the ten tiles the output array holds `max (a + y · d + b) 0` of the four arrays the region was entered with. -/
theorem final (c : Dev nD) :
    (dat1 (F := Ideal) V c).arrAt 4 cfg1.N = combineRelu128 (V c main_v46) (V c main_v34) (V c main_v17) (V c main_v47) :=
  (dat1 (F := Ideal) V c).arrAt_eq_of_cover 4 (combineRelu128 (V c main_v46) (V c main_v34) (V c main_v17) (V c main_v47))
    (fun t _ => flushed_eq V c t) covered

end Cert.KernelIdeal.CombineHidden

end
-- ==== Proof.ProjectOutput.lean ====
/- The second dense product, tile by tile: ten blocks of 5000 rows of the hidden layer, each times the whole of `W2`, fill the 50000 × 64 array. -/
import proofs.«120619_j32916629357419_1_alg».proof.Proof.Gen.KernelIdeal.Frame
import proofs.«120619_j32916629357419_1_alg».proof.Proof.Gcn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjectOutput

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

-- the TensorCore's buffer contents when the region is entered
variable (V : (c : Dev nD) → (b : Ref sig .tc) → Buf (Elt Ideal) ((c : Thread nD τ).loc b))

/-- The zero offset of a whole-buffer access, as the constant function. -/
theorem hz : (![0, 0] : Fin 2 → Nat) = fun _ => 0 := funext fun a => by fin_cases a <;> rfl

/-! ## The tile's product at an index -/

/-- The left operand is read at the output's row … -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and the summation index, -/
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand at the summation index … -/
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … and the output's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- One tile: entry (r, s) of the body's payload is the sum over the 128 inner entries of row r of the left block times column s of the right one (the reshape of the left block to its own shape changes nothing). -/
theorem pay_apply (x0 : Vec Ideal S5000x128 .f32) (x1 : Vec Ideal S128x64 .f32) (j : S5000x64.Idx) :
    k2_pay1 (F := Ideal) x0 x1 j = ∑ k : Fin 128, x0 (ix2 (j 0) k) * x1 (ix2 k (j 1)) := by
  unfold k2_pay1
  simp only [matmul]
  rw [shapeCast_self, Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = ix2 (j 0) k := funext fun a => Fin.ext (by
    match a with
    | ⟨0, _⟩ => exact lhs_row _ _
    | ⟨1, _⟩ => exact (lhs_col _ _).trans hk)
  have er : dot_S5000x128_S128x64_S5000x64_1_0_0_1_n_n.rhsIdx j ((ValueIdx.contrEquiv1 dot_S5000x128_S128x64_S5000x64_1_0_0_1_n_n 128 rfl rfl).symm k) = ix2 k (j 1) := funext fun a => Fin.ext (by
    match a with
    | ⟨0, _⟩ => exact (rhs_row _ _).trans hk
    | ⟨1, _⟩ => exact rhs_col _ _)
  rw [el, er]
  rfl

/-! ## From the tiles to the array -/

/-- The printed index maps, decided over the ten points: the left block and the output block sit at the same block row, every block column is 0, the right operand is the one whole block, and the block row is at most 9. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten block rows is some point's. -/
theorem idx_onto : ∀ q : Fin 10, ∃ t : Fin cfg2.N, win2_2.index t = ![q.val, 0] :=
  (by decide +kernel : ∀ q : Fin 10, ∃ t : Fin grid2.N, win2_2.index t = ![q.val, 0])

/-- At point `t`, entry `j` of the tile's product, its two blocks read off arrays `A` and `W`, is the entry of `A W` that `j` names in the output's block: the left block's rows are the output block's rows, its columns all 128; the right block is all of `W`. -/
theorem sum_blocks (t : Fin cfg2.N) (j : ((cfg2.win 2).xblock (grid2.coords t)).Idx)
    (A : FVec Ideal S50000x128 .f32) (W : FVec Ideal S128x64 .f32) :
    ∑ k : Fin 128, A (((cfg2.win 0).blk t).view.emb (ix2 (j 0) k)) * W (((cfg2.win 1).blk t).view.emb (ix2 k (j 1)))
      = project64 A W (((cfg2.win 2).blk t).view.emb j) := by
  obtain ⟨e0, e1, e2, e3, e4, e5⟩ := idx_facts t
  show _ = ∑ k : Fin 128, A (ix2 ((((cfg2.win 2).blk t).view.emb j) 0) k) * W (ix2 k ((((cfg2.win 2).blk t).view.emb j) 1))
  refine Finset.sum_congr rfl fun k _ => ?_
  have hj0 : (j 0).val < 5000 := (j 0).isLt
  have hj1 : (j 1).val < 64 := (j 1).isLt
  have hk : k.val < 128 := k.isLt
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [h0, h1]
  rfl

/-- What point `t` writes back is block `t` of the product of the two arrays the region was entered with. -/
theorem flushed_eq (c : Dev nD) (t : Fin cfg2.N) :
    (dat2 (F := Ideal) V c).flushed 2 t = ((cfg2.win 2).blk t).view.read (Elt Ideal) (project64 (V c main_v48) (V c main_arg4)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x64) hz]
  funext j
  show k2_pay1 (F := Ideal) (iblk2 V c 0 t) (iblk2 V c 1 t) j = project64 (V c main_v48) (V c main_arg4) (((cfg2.win 2).blk t).view.emb j)
  rw [pay_apply]
  exact sum_blocks t j (V c main_v48) (V c main_arg4)

/-- An index of the array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v49).slice (win2_2.rect t)).set ↔ _
  rw [View.set_slice_whole, Rect.mem_set_unit]
  exact Iff.rfl

/-- Row `r` of the array lies in the block of the point whose block row is `r / 5000`: the ten blocks fill the array. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the ten tiles the output array holds the row-by-column products of the two arrays the region was entered with. -/
theorem final (c : Dev nD) :
    (dat2 (F := Ideal) V c).arrAt 2 cfg2.N = project64 (V c main_v48) (V c main_arg4) :=
  (dat2 (F := Ideal) V c).arrAt_eq_of_cover 2 (project64 (V c main_v48) (V c main_arg4)) (fun t _ => flushed_eq V c t) covered

end Cert.KernelIdeal.ProjectOutput

end
-- ==== Proof.CombineOutput.lean ====
/- The last layer's pointwise part, tile by tile: edge sums plus the node's own row at its weight plus the bias. -/
import proofs.«120619_j32916629357419_1_alg».proof.Proof.Gen.KernelIdeal.Frame
import proofs.«120619_j32916629357419_1_alg».proof.Proof.Gcn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineOutput

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

/-! ## One tile's arithmetic, entry by entry -/

/-- A column `[a, 1]` spread over `b` columns reads, at `(p, c)`, the column's entry in row `p`. -/
theorem spreadColumn_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(p, q)` of what one tile stores: `a + y · d + b` with `d` read in row `p` of the column and `b` in
    column `q` of the row. The casts of a shape to itself change nothing, and the two spreads read the column and the row. -/
theorem tile_apply (v0 : Vec Ideal S5000x1 .f32) (v4 : Vec Ideal S1x64 .f32) (v8 v10 : Vec Ideal S5000x64 .f32)
    (p : Fin 5000) (q : Fin 64) :
    k3_pay1 (F := Ideal) v0 v4 v8 v10 (ix2 p q)
      = v8 (ix2 p q) + v10 (ix2 p q) * v0 (ix2 p (0 : Fin 1)) + v4 (ix2 (0 : Fin 1) q) := by
  unfold k3_pay1
  simp only [shapeCast_self]
  show v8 (ix2 p q) + v10 (ix2 p q) * broadcastTo S5000x64 v0 broadcasts_S5000x1_S5000x64 (ix2 p q)
      + broadcastTo S5000x64 v4 broadcasts_S1x64_S5000x64 (ix2 p q) = _
  rw [spreadColumn_apply v0 broadcasts_S5000x1_S5000x64 p q, broadcastTo_1b_ab_apply v4 broadcasts_S1x64_S5000x64 p q]

/-! ## Where each tile reads and writes -/

theorem origin2 : (![0, 0] : Fin 2 → Nat) = fun _ => 0 := funext fun a => by fin_cases a <;> rfl

/-- The block index maps over the ten grid points: the two full-width inputs and the column move down their arrays with the output
    tile, all in block column 0; the bias row stays at its one block. -/
theorem index_facts : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 9 :=
  (by decide +kernel : ∀ t : Fin grid3.N, _)

/-- Each of the ten row blocks of the output is some grid point's. -/
theorem index_onto : ∀ q : Fin 10, ∃ t : Fin cfg3.N, win3_4.index t = ![q.val, 0] :=
  (by decide +kernel : ∀ q : Fin 10, ∃ t : Fin grid3.N, win3_4.index t = ![q.val, 0])

-- the TensorCore's buffer contents when the region is entered
variable (V : (c : Dev nD) → (b : Ref sig .tc) → Buf (Elt Ideal) ((c : Thread nD τ).loc b))

/-- What grid point `t` writes back is its 5000 rows of `a + y · d + b`: entry `(p, q)` of the tile sits in row
    `5000 · (block row) + p`, column `q` of each full-width array, the column's entry in that same row, the bias in column `q`. -/
theorem flushed_eq (c : Dev nD) (t : Fin cfg3.N) :
    (dat3 (F := Ideal) V c).flushed 4 t
      = ((cfg3.win 4).blk t).view.read (Elt Ideal) (combine64 (V c main_v61) (V c main_v49) (V c main_v17) (V c main_v62)) := by
  show (cfg3.win 4).cut (grid3.coords t) ((dat3 (F := Ideal) V c).after 4 t) = _
  rw [after3_4]
  unfold out3_4
  rw [View.canon_unit_zero origin2]
  simp only [View.ld_unit_zero (S := S5000x1) origin2, View.ld_unit_zero (S := S1x64) origin2,
    View.ld_unit_zero (S := S5000x64) origin2]
  obtain ⟨e00, e01, e10, e11, e20, e21, e30, e31, e41, e40⟩ := index_facts t
  funext j
  obtain ⟨p, q, rfl⟩ : ∃ (p : Fin 5000) (q : Fin 64), j = ix2 p q := ⟨j 0, j 1, eq_ix2 j⟩
  refine (tile_apply (iblk3 V c 2 t) (iblk3 V c 3 t) (iblk3 V c 0 t) (iblk3 V c 1 t) p q).trans ?_
  have h0 : ((cfg3.win 0).blk t).view.emb (ix2 p q) = ((cfg3.win 4).blk t).view.emb (ix2 p q) := by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 64 + 1 * q.val = win3_4.index t (1 : Fin 2) * 64 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 5000 + 1 * p.val = win3_4.index t (0 : Fin 2) * 5000 + 1 * p.val; omega
    | ⟨1, _⟩ => show win3_1.index t (1 : Fin 2) * 64 + 1 * q.val = win3_4.index t (1 : Fin 2) * 64 + 1 * q.val; omega
  have h2 : ((cfg3.win 2).blk t).view.emb (ix2 p (0 : Fin 1))
      = ix2 ((((cfg3.win 4).blk t).view.emb (ix2 p q)) 0) (0 : Fin 1) := by
    funext a; apply Fin.ext
    match a with
    | ⟨0, _⟩ => show win3_2.index t (0 : Fin 2) * 5000 + 1 * p.val = win3_4.index t (0 : Fin 2) * 5000 + 1 * p.val; omega
    | ⟨1, _⟩ => show win3_2.index t (1 : Fin 2) * 1 + 1 * 0 = 0; omega
  have h3 : ((cfg3.win 3).blk t).view.emb (ix2 (0 : Fin 1) q)
      = ix2 (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 64 + 1 * q.val = win3_4.index t (1 : Fin 2) * 64 + 1 * q.val; omega
  have key : ∀ (A Y : S50000x64.Idx → EReal) (D : S50000x1.Idx → EReal) (B : S1x64.Idx → EReal),
      A (((cfg3.win 0).blk t).view.emb (ix2 p q))
          + Y (((cfg3.win 1).blk t).view.emb (ix2 p q)) * D (((cfg3.win 2).blk t).view.emb (ix2 p (0 : Fin 1)))
          + B (((cfg3.win 3).blk t).view.emb (ix2 (0 : Fin 1) q))
        = combine64 A Y D B (((cfg3.win 4).blk t).view.emb (ix2 p q)) := by
    intro A Y D B
    rw [h0, h1, h2, h3]
    rfl
  exact key (V c main_v61) (V c main_v49) (V c main_v17) (V c main_v62)

/-- A row-and-column pair is in grid point `t`'s tile iff each coordinate is in the tile's range on its axis. -/
theorem mem_blk (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v63).slice (win3_4.rect t)).set ↔ _
  rw [View.set_slice_whole, Rect.mem_set_unit]
  exact Iff.rfl

/-- Row `r` of the output lies in the tile of block row `r / 5000`: the ten tiles fill the array. -/
theorem covered (i : S50000x64.Idx) :
    ∃ t : Fin cfg3.N, (cfg3.win 4).flush t = true ∧ i ∈ ((cfg3.win 4).blk t).view.set := by
  have hi0 : (i 0).val < 50000 := idx2_lt0 i
  have hi1 : (i 1).val < 64 := idx2_lt1 i
  obtain ⟨t, ht⟩ := index_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- After the ten tiles the output array holds `a + y · d + b` of the four arrays the region was entered with. -/
theorem final (c : Dev nD) :
    (dat3 (F := Ideal) V c).arrAt 4 cfg3.N = combine64 (V c main_v61) (V c main_v49) (V c main_v17) (V c main_v62) :=
  (dat3 (F := Ideal) V c).arrAt_eq_of_cover 4 (combine64 (V c main_v61) (V c main_v49) (V c main_v17) (V c main_v62))
    (fun t _ => flushed_eq V c t) covered

end Cert.KernelIdeal.CombineOutput

end
-- ==== Proof.KernelLayers.lean ====
/-
  The kernel's program, boundary by boundary. Its @main is seven stretches: host operations (the edge list's rows, the
  normalisation `r`, the weights), the first tiled product `x W1`, host operations (the sum over incoming edges, the
  bias as a row), the hidden layer's combine, the second tiled product, host operations again, and the last combine. At
  each boundary the arrays the next stretch reads are named as functions of the six arguments; the last one is
  `Cert.Gcn.output`.
-/
import proofs.«120619_j32916629357419_1_alg».proof.Proof.Gen.KernelIdeal.Frame
import proofs.«120619_j32916629357419_1_alg».proof.Proof.Gcn
import proofs.«120619_j32916629357419_1_alg».proof.Proof.ProjectHidden
import proofs.«120619_j32916629357419_1_alg».proof.Proof.CombineHidden
import proofs.«120619_j32916629357419_1_alg».proof.Proof.ProjectOutput
import proofs.«120619_j32916629357419_1_alg».proof.Proof.CombineOutput
import Idealize.ShloMosaic.Lib.StableHlo.Run

set_option maxRecDepth 16384

noncomputable section

namespace Cert.KernelIdeal.Layers

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg) (c : Dev nD)

/-- The six arguments as launched on core `c`: node features, edge list, and each layer's weights and bias. -/
abbrev feat : FVec Ideal S50000x128 .f32 := m ((c : Thread nD τ).loc main_arg0)
abbrev edges : IVec S2x600000 32 := m ((c : Thread nD τ).loc main_arg1)
abbrev w1 : FVec Ideal S128x128 .f32 := m ((c : Thread nD τ).loc main_arg2)
abbrev b1 : FVec Ideal S128 .f32 := m ((c : Thread nD τ).loc main_arg3)
abbrev w2 : FVec Ideal S128x64 .f32 := m ((c : Thread nD τ).loc main_arg4)
abbrev b2 : FVec Ideal S64 .f32 := m ((c : Thread nD τ).loc main_arg5)

/-! ## After the first host stretch: the edge list's rows and the weights -/

theorem src_1 : W1 m ρ c (Proc.devRef .tc main_v1) = srcRow (edges m c) := by
  show StableHlo.after hostOps0 (W0 m ρ c) (Proc.devRef .tc main_v1) = _
  after_results_simp
  rfl

theorem dst_1 : W1 m ρ c (Proc.devRef .tc main_v3) = dstRow (edges m c) := by
  show StableHlo.after hostOps0 (W0 m ρ c) (Proc.devRef .tc main_v3) = _
  after_results_simp
  rfl

theorem self_1 : W1 m ρ c (Proc.devRef .tc main_v17) = selfWeight (edges m c) := by
  show StableHlo.after hostOps0 (W0 m ρ c) (Proc.devRef .tc main_v17) = _
  after_results_simp
  rfl

theorem edge_1 : W1 m ρ c (Proc.devRef .tc main_v33) = edgeWeight (edges m c) := by
  show StableHlo.after hostOps0 (W0 m ρ c) (Proc.devRef .tc main_v33) = _
  after_results_simp
  rfl

theorem feat_1 : W1 m ρ c (Proc.devRef .tc main_arg0) = feat m c := by
  show StableHlo.after hostOps0 (W0 m ρ c) (Proc.devRef .tc main_arg0) = _
  after_results_simp

theorem w1_1 : W1 m ρ c (Proc.devRef .tc main_arg2) = w1 m c := by
  show StableHlo.after hostOps0 (W0 m ρ c) (Proc.devRef .tc main_arg2) = _
  after_results_simp

theorem b1_1 : W1 m ρ c (Proc.devRef .tc main_arg3) = b1 m c := by
  show StableHlo.after hostOps0 (W0 m ρ c) (Proc.devRef .tc main_arg3) = _
  after_results_simp

theorem w2_1 : W1 m ρ c (Proc.devRef .tc main_arg4) = w2 m c := by
  show StableHlo.after hostOps0 (W0 m ρ c) (Proc.devRef .tc main_arg4) = _
  after_results_simp

theorem b2_1 : W1 m ρ c (Proc.devRef .tc main_arg5) = b2 m c := by
  show StableHlo.after hostOps0 (W0 m ρ c) (Proc.devRef .tc main_arg5) = _
  after_results_simp

/-! ## After the first tiled product: `x W1` beside what the host stretch left -/

/-- The product's array holds `x W1`: the ten tiles' write-backs, at the arguments as launched. -/
theorem proj_2 : W2 m ρ c (Proc.devRef .tc main_v34) = project128 (feat m c) (w1 m c) :=
  (W2_arr m ρ c 2).trans ((ProjectHidden.final (V1 m ρ) c).trans (by
    show project128 (W1 m ρ c (Proc.devRef .tc main_arg0)) (W1 m ρ c (Proc.devRef .tc main_arg2)) = _
    rw [feat_1, w1_1]))

theorem src_2 : W2 m ρ c (Proc.devRef .tc main_v1) = srcRow (edges m c) :=
  (W2_of_ne m ρ c main_v1 (by decide)).trans (src_1 m ρ c)

theorem dst_2 : W2 m ρ c (Proc.devRef .tc main_v3) = dstRow (edges m c) :=
  (W2_of_ne m ρ c main_v3 (by decide)).trans (dst_1 m ρ c)

theorem self_2 : W2 m ρ c (Proc.devRef .tc main_v17) = selfWeight (edges m c) :=
  (W2_of_ne m ρ c main_v17 (by decide)).trans (self_1 m ρ c)

theorem edge_2 : W2 m ρ c (Proc.devRef .tc main_v33) = edgeWeight (edges m c) :=
  (W2_of_ne m ρ c main_v33 (by decide)).trans (edge_1 m ρ c)

theorem b1_2 : W2 m ρ c (Proc.devRef .tc main_arg3) = b1 m c :=
  (W2_of_ne m ρ c main_arg3 (by decide)).trans (b1_1 m ρ c)

theorem w2_2 : W2 m ρ c (Proc.devRef .tc main_arg4) = w2 m c :=
  (W2_of_ne m ρ c main_arg4 (by decide)).trans (w2_1 m ρ c)

theorem b2_2 : W2 m ρ c (Proc.devRef .tc main_arg5) = b2 m c :=
  (W2_of_ne m ρ c main_arg5 (by decide)).trans (b2_1 m ρ c)

/-! ## After the second host stretch: the sum over incoming edges of `x W1`, and the bias as a row -/

theorem agg_3 : W3 m ρ c (Proc.devRef .tc main_v46) = aggregate128 (project128 (feat m c) (w1 m c)) (edges m c) := by
  show StableHlo.after hostOps1 (W2 m ρ c) (Proc.devRef .tc main_v46) = _
  after_results_simp
  rw [proj_2, src_2, dst_2, edge_2]
  rfl

theorem bias_3 : W3 m ρ c (Proc.devRef .tc main_v47) = biasRow128 (b1 m c) := by
  show StableHlo.after hostOps1 (W2 m ρ c) (Proc.devRef .tc main_v47) = _
  after_results_simp
  rw [b1_2]
  rfl

theorem proj_3 : W3 m ρ c (Proc.devRef .tc main_v34) = project128 (feat m c) (w1 m c) := by
  show StableHlo.after hostOps1 (W2 m ρ c) (Proc.devRef .tc main_v34) = _
  after_results_simp
  rw [proj_2]

theorem src_3 : W3 m ρ c (Proc.devRef .tc main_v1) = srcRow (edges m c) := by
  show StableHlo.after hostOps1 (W2 m ρ c) (Proc.devRef .tc main_v1) = _
  after_results_simp
  rw [src_2]

theorem dst_3 : W3 m ρ c (Proc.devRef .tc main_v3) = dstRow (edges m c) := by
  show StableHlo.after hostOps1 (W2 m ρ c) (Proc.devRef .tc main_v3) = _
  after_results_simp
  rw [dst_2]

theorem self_3 : W3 m ρ c (Proc.devRef .tc main_v17) = selfWeight (edges m c) := by
  show StableHlo.after hostOps1 (W2 m ρ c) (Proc.devRef .tc main_v17) = _
  after_results_simp
  rw [self_2]

theorem edge_3 : W3 m ρ c (Proc.devRef .tc main_v33) = edgeWeight (edges m c) := by
  show StableHlo.after hostOps1 (W2 m ρ c) (Proc.devRef .tc main_v33) = _
  after_results_simp
  rw [edge_2]

theorem w2_3 : W3 m ρ c (Proc.devRef .tc main_arg4) = w2 m c := by
  show StableHlo.after hostOps1 (W2 m ρ c) (Proc.devRef .tc main_arg4) = _
  after_results_simp
  rw [w2_2]

theorem b2_3 : W3 m ρ c (Proc.devRef .tc main_arg5) = b2 m c := by
  show StableHlo.after hostOps1 (W2 m ρ c) (Proc.devRef .tc main_arg5) = _
  after_results_simp
  rw [b2_2]

/-! ## After the hidden layer's combine -/

/-- The combine's array holds the hidden layer. -/
theorem hidden_4 : W4 m ρ c (Proc.devRef .tc main_v48) = hidden (feat m c) (edges m c) (w1 m c) (b1 m c) :=
  (W4_arr m ρ c 4).trans ((CombineHidden.final (V3 m ρ) c).trans (by
    show combineRelu128 (W3 m ρ c (Proc.devRef .tc main_v46)) (W3 m ρ c (Proc.devRef .tc main_v34))
      (W3 m ρ c (Proc.devRef .tc main_v17)) (W3 m ρ c (Proc.devRef .tc main_v47)) = _
    rw [agg_3, proj_3, self_3, bias_3]
    rfl))

theorem src_4 : W4 m ρ c (Proc.devRef .tc main_v1) = srcRow (edges m c) :=
  (W4_of_ne m ρ c main_v1 (by decide)).trans (src_3 m ρ c)

theorem dst_4 : W4 m ρ c (Proc.devRef .tc main_v3) = dstRow (edges m c) :=
  (W4_of_ne m ρ c main_v3 (by decide)).trans (dst_3 m ρ c)

theorem edge_4 : W4 m ρ c (Proc.devRef .tc main_v33) = edgeWeight (edges m c) :=
  (W4_of_ne m ρ c main_v33 (by decide)).trans (edge_3 m ρ c)

theorem w2_4 : W4 m ρ c (Proc.devRef .tc main_arg4) = w2 m c :=
  (W4_of_ne m ρ c main_arg4 (by decide)).trans (w2_3 m ρ c)

theorem b2_4 : W4 m ρ c (Proc.devRef .tc main_arg5) = b2 m c :=
  (W4_of_ne m ρ c main_arg5 (by decide)).trans (b2_3 m ρ c)

/-- The weight column is one of the combine's own input arrays: the region leaves it as it found it. -/
theorem self_4 : W4 m ρ c (Proc.devRef .tc main_v17) = selfWeight (edges m c) :=
  ((W4_arr m ρ c 2).trans (((dat1 (V3 m ρ) c).arrAt_in 2 rfl _).trans (A_eq1 (V3 m ρ) c 2))).trans (self_3 m ρ c)

/-! ## After the second tiled product -/

theorem proj_5 : W5 m ρ c (Proc.devRef .tc main_v49) = project64 (hidden (feat m c) (edges m c) (w1 m c) (b1 m c)) (w2 m c) :=
  (W5_arr m ρ c 2).trans ((ProjectOutput.final (V4 m ρ) c).trans (by
    show project64 (W4 m ρ c (Proc.devRef .tc main_v48)) (W4 m ρ c (Proc.devRef .tc main_arg4)) = _
    rw [hidden_4, w2_4]))

theorem src_5 : W5 m ρ c (Proc.devRef .tc main_v1) = srcRow (edges m c) :=
  (W5_of_ne m ρ c main_v1 (by decide)).trans (src_4 m ρ c)

theorem dst_5 : W5 m ρ c (Proc.devRef .tc main_v3) = dstRow (edges m c) :=
  (W5_of_ne m ρ c main_v3 (by decide)).trans (dst_4 m ρ c)

theorem self_5 : W5 m ρ c (Proc.devRef .tc main_v17) = selfWeight (edges m c) :=
  (W5_of_ne m ρ c main_v17 (by decide)).trans (self_4 m ρ c)

theorem edge_5 : W5 m ρ c (Proc.devRef .tc main_v33) = edgeWeight (edges m c) :=
  (W5_of_ne m ρ c main_v33 (by decide)).trans (edge_4 m ρ c)

theorem b2_5 : W5 m ρ c (Proc.devRef .tc main_arg5) = b2 m c :=
  (W5_of_ne m ρ c main_arg5 (by decide)).trans (b2_4 m ρ c)

/-! ## After the third host stretch -/

theorem agg_6 : W6 m ρ c (Proc.devRef .tc main_v61) = aggregate64 (project64 (hidden (feat m c) (edges m c) (w1 m c) (b1 m c)) (w2 m c)) (edges m c) := by
  show StableHlo.after hostOps3 (W5 m ρ c) (Proc.devRef .tc main_v61) = _
  after_results_simp
  rw [proj_5, src_5, dst_5, edge_5]
  rfl

theorem bias_6 : W6 m ρ c (Proc.devRef .tc main_v62) = biasRow64 (b2 m c) := by
  show StableHlo.after hostOps3 (W5 m ρ c) (Proc.devRef .tc main_v62) = _
  after_results_simp
  rw [b2_5]
  rfl

theorem proj_6 : W6 m ρ c (Proc.devRef .tc main_v49) = project64 (hidden (feat m c) (edges m c) (w1 m c) (b1 m c)) (w2 m c) := by
  show StableHlo.after hostOps3 (W5 m ρ c) (Proc.devRef .tc main_v49) = _
  after_results_simp
  rw [proj_5]

theorem self_6 : W6 m ρ c (Proc.devRef .tc main_v17) = selfWeight (edges m c) := by
  show StableHlo.after hostOps3 (W5 m ρ c) (Proc.devRef .tc main_v17) = _
  after_results_simp
  rw [self_5]

/-! ## The result -/

/-- The last combine's array holds the two layers of the six arguments. -/
theorem result_7 : W7 m ρ c (Proc.devRef .tc main_v63) = output (feat m c) (edges m c) (w1 m c) (b1 m c) (w2 m c) (b2 m c) :=
  (W7_arr m ρ c 4).trans ((CombineOutput.final (V6 m ρ) c).trans (by
    show combine64 (W6 m ρ c (Proc.devRef .tc main_v61)) (W6 m ρ c (Proc.devRef .tc main_v49))
      (W6 m ρ c (Proc.devRef .tc main_v17)) (W6 m ρ c (Proc.devRef .tc main_v62)) = _
    rw [agg_6, proj_6, self_6, bias_6]
    rfl))

end Cert.KernelIdeal.Layers

end
-- ==== Proof.ReferenceLayers.lean ====
/- The reference's program, read stage by stage, is the two layers of `Cert.Gcn.output`. -/
import proofs.«120619_j32916629357419_1_alg».proof.Proof.Gen.ReferenceIdeal.Read
import proofs.«120619_j32916629357419_1_alg».proof.Proof.Gcn
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Layers

open Idealize.ShloMosaic Idealize.ShloMosaic.TcCoe Idealize.ShloMosaic.ValueIdx
open Cert.Gcn
open Cert.ReferenceIdeal.Read

/-! ## What the two programs share: the index arrays, the constants, the normalisation, the edge sums

Each gather and scatter-add carries the same dimension numbers in both programs, and is applied to the same index arrays:
the edge list's two rows, a negative index counted from the end, laid out as one column. -/

theorem scatter1_eq : Cert.ReferenceIdeal.scatter_S50000_S600000x1_S600000_n_0_0_1 = Cert.KernelIdeal.scatter_S50000_S600000x1_S600000_n_0_0_1 := rfl
theorem gather1_eq : Cert.ReferenceIdeal.gather_S50000_S600000x1_S600000_n_0_n_n_0_1_1 = Cert.KernelIdeal.gather_S50000_S600000x1_S600000_n_0_n_n_0_1_1 := rfl
theorem gather128_eq : Cert.ReferenceIdeal.gather_S50000x128_S600000x1_S600000x128_1_0_n_n_0_1_1128 = Cert.KernelIdeal.gather_S50000x128_S600000x1_S600000x128_1_0_n_n_0_1_1128 := rfl
theorem scatter128_eq : Cert.ReferenceIdeal.scatter_S50000x128_S600000x1_S600000x128_1_0_0_1 = Cert.KernelIdeal.scatter_S50000x128_S600000x1_S600000x128_1_0_0_1 := rfl
theorem gather64_eq : Cert.ReferenceIdeal.gather_S50000x64_S600000x1_S600000x64_1_0_n_n_0_1_164 = Cert.KernelIdeal.gather_S50000x64_S600000x1_S600000x64_1_0_n_n_0_1_164 := rfl
theorem scatter64_eq : Cert.ReferenceIdeal.scatter_S50000x64_S600000x1_S600000x64_1_0_0_1 = Cert.KernelIdeal.scatter_S50000x64_S600000x1_S600000x64_1_0_0_1 := rfl

/-! The reference's index stages are those rows and columns. -/

theorem v1_eq (x1 : IVec Cert.KernelIdeal.S2x600000 32) : val_main_v1 (F := Ideal) x1 = srcRow x1 := rfl
theorem v3_eq (x1 : IVec Cert.KernelIdeal.S2x600000 32) : val_main_v3 (F := Ideal) x1 = dstRow x1 := rfl
theorem v10_eq (x1 : IVec Cert.KernelIdeal.S2x600000 32) : val_main_v10 (F := Ideal) x1 = wrap (dstRow x1) := rfl
theorem v11_eq (x1 : IVec Cert.KernelIdeal.S2x600000 32) : val_main_v11 (F := Ideal) x1 = col (wrap (dstRow x1)) := rfl

theorem v22_eq (x1 : IVec Cert.KernelIdeal.S2x600000 32) : val_main_v22 (F := Ideal) x1 = col (wrap (srcRow x1)) := rfl
theorem v29_eq (x1 : IVec Cert.KernelIdeal.S2x600000 32) : val_main_v29 (F := Ideal) x1 = col (wrap (dstRow x1)) := rfl
theorem v37_eq (x1 : IVec Cert.KernelIdeal.S2x600000 32) : val_main_v37 (F := Ideal) x1 = col (wrap (srcRow x1)) := rfl
theorem v43_eq (x1 : IVec Cert.KernelIdeal.S2x600000 32) : val_main_v43 (F := Ideal) x1 = col (dstRow x1) := rfl
theorem v61_eq (x1 : IVec Cert.KernelIdeal.S2x600000 32) : val_main_v61 (F := Ideal) x1 = col (wrap (dstRow x1)) := rfl
theorem v72_eq (x1 : IVec Cert.KernelIdeal.S2x600000 32) : val_main_v72 (F := Ideal) x1 = col (wrap (srcRow x1)) := rfl
theorem v79_eq (x1 : IVec Cert.KernelIdeal.S2x600000 32) : val_main_v79 (F := Ideal) x1 = col (wrap (dstRow x1)) := rfl
theorem v87_eq (x1 : IVec Cert.KernelIdeal.S2x600000 32) : val_main_v87 (F := Ideal) x1 = col (wrap (srcRow x1)) := rfl
theorem v93_eq (x1 : IVec Cert.KernelIdeal.S2x600000 32) : val_main_v93 (F := Ideal) x1 = col (dstRow x1) := rfl

/-! Its constant stages: the zero arrays the sums start from, and the ones that count a node's incoming edges. -/

open Cert.KernelIdeal Cert.KernelIdeal.Facts₀ Cert.KernelIdeal.Facts in
theorem v5_eq : val_main_v5 (F := Ideal) = broadcastInDim S50000 ![] bcast_S_S50000 (constant (F := Ideal) S_ .f32 0x00000000#32) := rfl
open Cert.KernelIdeal Cert.KernelIdeal.Facts₀ Cert.KernelIdeal.Facts in
theorem v12_eq : val_main_v12 (F := Ideal) = broadcastInDim S600000 ![] bcast_S_S600000 (constant (F := Ideal) S_ .f32 0x3F800000#32) := rfl
open Cert.KernelIdeal Cert.KernelIdeal.Facts₀ Cert.KernelIdeal.Facts in
theorem v14_eq : val_main_v14 (F := Ideal) = broadcastInDim S50000 ![] bcast_S_S50000 (constant (F := Ideal) S_ .f32 0x3F800000#32) := rfl

/-- The first layer's normalisation is `r = (1 + in-degree)^(-1/2)`. -/
theorem v16_eq (x1 : IVec Cert.KernelIdeal.S2x600000 32) : val_main_v16 (F := Ideal) x1 = invSqrtDeg x1 := by
  unfold val_main_v16 val_main_v15 val_main_v13 invSqrtDeg
  rw [scatter1_eq, v5_eq, v11_eq, v12_eq, v14_eq]

open Cert.KernelIdeal Cert.KernelIdeal.Facts₀ Cert.KernelIdeal.Facts in
theorem v55_eq : val_main_v55 (F := Ideal) = broadcastInDim S50000 ![] bcast_S_S50000 (constant (F := Ideal) S_ .f32 0x00000000#32) := rfl
open Cert.KernelIdeal Cert.KernelIdeal.Facts₀ Cert.KernelIdeal.Facts in
theorem v62_eq : val_main_v62 (F := Ideal) = broadcastInDim S600000 ![] bcast_S_S600000 (constant (F := Ideal) S_ .f32 0x3F800000#32) := rfl
open Cert.KernelIdeal Cert.KernelIdeal.Facts₀ Cert.KernelIdeal.Facts in
theorem v64_eq : val_main_v64 (F := Ideal) = broadcastInDim S50000 ![] bcast_S_S50000 (constant (F := Ideal) S_ .f32 0x3F800000#32) := rfl
open Cert.KernelIdeal Cert.KernelIdeal.Facts₀ Cert.KernelIdeal.Facts in
theorem v42_eq : val_main_v42 (F := Ideal) = broadcastInDim S50000x128 ![] bcast_S_S50000x128 (constant (F := Ideal) S_ .f32 0x00000000#32) := rfl
open Cert.KernelIdeal Cert.KernelIdeal.Facts₀ Cert.KernelIdeal.Facts in
theorem v92_eq : val_main_v92 (F := Ideal) = broadcastInDim S50000x64 ![] bcast_S_S50000x64 (constant (F := Ideal) S_ .f32 0x00000000#32) := rfl

/-- The second layer computes `r` again by the same operations. -/
theorem v66_eq (x1 : IVec Cert.KernelIdeal.S2x600000 32) : val_main_v66 (F := Ideal) x1 = invSqrtDeg x1 := by
  unfold val_main_v66 val_main_v65 val_main_v63 invSqrtDeg
  rw [scatter1_eq, v55_eq, v61_eq, v62_eq, v64_eq]

/-- A vector of 600000 entries reshaped to one column is the vector broadcast along axis 0 of the column. -/
theorem column600000 {α : Type} (y : Cert.KernelIdeal.S600000.Idx → α)
    (h : Cert.KernelIdeal.S600000.ShapeCasts Cert.KernelIdeal.S600000x1)
    (h' : Cert.KernelIdeal.S600000.BroadcastsInDim Cert.KernelIdeal.S600000x1 (![0] : Fin 1 → Fin 2)) :
    shapeCast Cert.KernelIdeal.S600000x1 y h = broadcastInDim Cert.KernelIdeal.S600000x1 ![0] h' y := by
  funext i
  rw [shapeCast_apply y h i (ix1 (i 0))
      (by rewrite [Shape.rowMajor_val_two, Shape.rowMajor_val_one]
          have h1 : (i 1).val < 1 := (i 1).isLt
          show (i 0).val = (i 0).val * 1 + (i 1).val
          omega),
    broadcastInDim_apply _ h' y i (ix1 (i 0)) (fun a => match a with
      | ⟨0, _⟩ => by show (i 0).val = if (600000 : Nat) = 1 then 0 else (i 0).val; rw [if_neg (by decide)])]

/-- The per-edge weight column `r s · r d`, in the first layer … -/
theorem v39_eq (x1 : IVec Cert.KernelIdeal.S2x600000 32) : val_main_v39 (F := Ideal) x1 = edgeWeight x1 := by
  unfold val_main_v39 val_main_v31 val_main_v23 val_main_v30 edgeWeight
  rw [gather1_eq, v16_eq, v22_eq, v29_eq]
  exact (column600000 _ _ _).symm

/-- … and, recomputed, in the second. -/
theorem v89_eq (x1 : IVec Cert.KernelIdeal.S2x600000 32) : val_main_v89 (F := Ideal) x1 = edgeWeight x1 := by
  unfold val_main_v89 val_main_v81 val_main_v73 val_main_v80 edgeWeight
  rw [gather1_eq, v66_eq, v72_eq, v79_eq]
  exact (column600000 _ _ _).symm

/-- The first layer's sum over incoming edges is `aggregate128` of the reference's own product. -/
theorem v44_eq (x0 : FVec Ideal Cert.KernelIdeal.S50000x128 .f32) (x1 : IVec Cert.KernelIdeal.S2x600000 32)
    (x2 : FVec Ideal Cert.KernelIdeal.S128x128 .f32) :
    val_main_v44 (F := Ideal) x0 x1 x2 = aggregate128 (val_main_v4 (F := Ideal) x0 x2) x1 := by
  unfold val_main_v44 val_main_v41 val_main_v38 val_main_v40 aggregate128
  rw [scatter128_eq, gather128_eq, v42_eq, v43_eq, v37_eq, v39_eq]

/-- The second layer's is `aggregate64` of its own product. -/
theorem v94_eq (x0 : FVec Ideal Cert.KernelIdeal.S50000x128 .f32) (x1 : IVec Cert.KernelIdeal.S2x600000 32)
    (x2 : FVec Ideal Cert.KernelIdeal.S128x128 .f32) (x3 : FVec Ideal Cert.KernelIdeal.S128 .f32)
    (x4 : FVec Ideal Cert.KernelIdeal.S128x64 .f32) :
    val_main_v94 (F := Ideal) x0 x1 x2 x3 x4 = aggregate64 (val_main_v54 (F := Ideal) x0 x1 x2 x3 x4) x1 := by
  unfold val_main_v94 val_main_v91 val_main_v88 val_main_v90 aggregate64
  rw [scatter64_eq, gather64_eq, v92_eq, v93_eq, v87_eq, v89_eq]

/-! ## The dense products are the row-by-column sums -/

theorem v4_eq (x0 : FVec Ideal Cert.KernelIdeal.S50000x128 .f32) (x2 : FVec Ideal Cert.KernelIdeal.S128x128 .f32) :
    val_main_v4 (F := Ideal) x0 x2 = project128 x0 x2 := by
  funext i
  rw [val_main_v4_apply]
  unfold project128
  refine Finset.sum_congr rfl fun k _ => ?_
  have el : lidx_main_v4 i k = ix2 (n0 := 50000) (n1 := 128) (i 0) k :=
    funext fun a => Fin.ext (by match a with | ⟨0, _⟩ => rfl | ⟨1, _⟩ => rfl)
  have er : ridx_main_v4 i k = ix2 (n0 := 128) (n1 := 128) k (i 1) :=
    funext fun a => Fin.ext (by match a with | ⟨0, _⟩ => rfl | ⟨1, _⟩ => rfl)
  exact congrArg₂ (· * ·) (congrArg x0 el) (congrArg x2 er)

theorem v54_eq (x0 : FVec Ideal Cert.KernelIdeal.S50000x128 .f32) (x1 : IVec Cert.KernelIdeal.S2x600000 32)
    (x2 : FVec Ideal Cert.KernelIdeal.S128x128 .f32) (x3 : FVec Ideal Cert.KernelIdeal.S128 .f32)
    (x4 : FVec Ideal Cert.KernelIdeal.S128x64 .f32) :
    val_main_v54 (F := Ideal) x0 x1 x2 x3 x4 = project64 (val_main_v53 (F := Ideal) x0 x1 x2 x3) x4 := by
  funext i
  rw [val_main_v54_apply]
  unfold project64
  refine Finset.sum_congr rfl fun k _ => ?_
  have el : lidx_main_v54 i k = ix2 (n0 := 50000) (n1 := 128) (i 0) k :=
    funext fun a => Fin.ext (by match a with | ⟨0, _⟩ => rfl | ⟨1, _⟩ => rfl)
  have er : ridx_main_v54 i k = ix2 (n0 := 128) (n1 := 64) k (i 1) :=
    funext fun a => Fin.ext (by match a with | ⟨0, _⟩ => rfl | ⟨1, _⟩ => rfl)
  exact congrArg₂ (· * ·) (congrArg (val_main_v53 (F := Ideal) x0 x1 x2 x3) el) (congrArg x4 er)

/-! ## The column of self weights and the bias rows, read at an index -/

theorem selfWeight_apply (x1 : IVec Cert.KernelIdeal.S2x600000 32) (r : Fin 50000) :
    selfWeight x1 (ix2 r (0 : Fin 1)) = invSqrtDeg x1 (ix1 r) * invSqrtDeg x1 (ix1 r) := by
  unfold selfWeight
  rw [shapeCast_apply _ _ (ix2 r (0 : Fin 1)) (ix1 r)
      (by rewrite [Shape.rowMajor_val_two, Shape.rowMajor_val_one]
          show r.val = r.val * 1 + 0
          omega)]
  exact mulf_apply _ _ _

theorem biasRow128_apply (b : FVec Ideal Cert.KernelIdeal.S128 .f32) (c : Fin 128) :
    biasRow128 b (ix2 (0 : Fin 1) c) = b (ix1 c) := by
  unfold biasRow128
  rw [shapeCast_apply _ _ (ix2 (0 : Fin 1) c) (ix1 c)
      (by rewrite [Shape.rowMajor_val_two, Shape.rowMajor_val_one]
          show c.val = 0 * 128 + c.val
          omega)]

theorem biasRow64_apply (b : FVec Ideal Cert.KernelIdeal.S64 .f32) (c : Fin 64) :
    biasRow64 b (ix2 (0 : Fin 1) c) = b (ix1 c) := by
  unfold biasRow64
  rw [shapeCast_apply _ _ (ix2 (0 : Fin 1) c) (ix1 c)
      (by rewrite [Shape.rowMajor_val_two, Shape.rowMajor_val_one]
          show c.val = 0 * 64 + c.val
          omega)]

/-! ## The pointwise combinations -/

/-- `combineRelu128` at an index, given its column and its row at that index. -/
theorem combineRelu128_at (a y : FVec Ideal Cert.KernelIdeal.S50000x128 .f32) (d : FVec Ideal Cert.KernelIdeal.S50000x1 .f32)
    (b : FVec Ideal Cert.KernelIdeal.S1x128 .f32) (i : Cert.KernelIdeal.S50000x128.Idx) (r c : Ideal .f32)
    (hd : d (ix2 (i 0) (0 : Fin 1)) = r) (hb : b (ix2 (0 : Fin 1) (i 1)) = c) :
    combineRelu128 a y d b i = max (a i + y i * r + c) 0 := by
  unfold combineRelu128
  rw [hd, hb]

/-- `combine64` at an index, given its column and its row at that index. -/
theorem combine64_at (a y : FVec Ideal Cert.KernelIdeal.S50000x64 .f32) (d : FVec Ideal Cert.KernelIdeal.S50000x1 .f32)
    (b : FVec Ideal Cert.KernelIdeal.S1x64 .f32) (i : Cert.KernelIdeal.S50000x64.Idx) (r c : Ideal .f32)
    (hd : d (ix2 (i 0) (0 : Fin 1)) = r) (hb : b (ix2 (0 : Fin 1) (i 1)) = c) :
    combine64 a y d b i = a i + y i * r + c := by
  unfold combine64
  rw [hd, hb]

theorem v53_eq (x0 : FVec Ideal Cert.KernelIdeal.S50000x128 .f32) (x1 : IVec Cert.KernelIdeal.S2x600000 32)
    (x2 : FVec Ideal Cert.KernelIdeal.S128x128 .f32) (x3 : FVec Ideal Cert.KernelIdeal.S128 .f32) :
    val_main_v53 (F := Ideal) x0 x1 x2 x3
      = combineRelu128 (val_main_v44 (F := Ideal) x0 x1 x2) (val_main_v4 (F := Ideal) x0 x2) (selfWeight x1) (biasRow128 x3) := by
  funext i
  have e1 : idx_main_v46 (idx_main_v47 i) = ix1 (n := 50000) (i 0) :=
    funext fun a => Fin.ext (by match a with | ⟨0, _⟩ => rfl)
  have e2 : idx_main_v50 (idx_main_v51 i) = ix1 (n := 128) (i 1) :=
    funext fun a => Fin.ext (by match a with | ⟨0, _⟩ => rfl)
  rw [val_main_v53_apply, val_main_v52_apply, val_main_v49_apply, val_main_v48_apply, val_main_v47_apply,
    val_main_v46_apply, val_main_v45_apply, val_main_v51_apply, val_main_v50_apply, val_main_call0_v0_apply,
    val_main_call0_cst_apply, v16_eq, e1, e2,
    combineRelu128_at _ _ _ _ i _ _ (selfWeight_apply x1 (i 0)) (biasRow128_apply x3 (i 1)),
    Ideal.ofBits_def, Ideal.ofBits_zero_f32]
  rfl

theorem v102_eq (x0 : FVec Ideal Cert.KernelIdeal.S50000x128 .f32) (x1 : IVec Cert.KernelIdeal.S2x600000 32)
    (x2 : FVec Ideal Cert.KernelIdeal.S128x128 .f32) (x3 : FVec Ideal Cert.KernelIdeal.S128 .f32)
    (x4 : FVec Ideal Cert.KernelIdeal.S128x64 .f32) (x5 : FVec Ideal Cert.KernelIdeal.S64 .f32) :
    val_main_v102 (F := Ideal) x0 x1 x2 x3 x4 x5
      = combine64 (val_main_v94 (F := Ideal) x0 x1 x2 x3 x4) (val_main_v54 (F := Ideal) x0 x1 x2 x3 x4) (selfWeight x1) (biasRow64 x5) := by
  funext i
  have e1 : idx_main_v96 (idx_main_v97 i) = ix1 (n := 50000) (i 0) :=
    funext fun a => Fin.ext (by match a with | ⟨0, _⟩ => rfl)
  have e2 : idx_main_v100 (idx_main_v101 i) = ix1 (n := 64) (i 1) :=
    funext fun a => Fin.ext (by match a with | ⟨0, _⟩ => rfl)
  rw [val_main_v102_apply, val_main_v99_apply, val_main_v98_apply, val_main_v97_apply,
    val_main_v96_apply, val_main_v95_apply, val_main_v101_apply, val_main_v100_apply, v66_eq, e1, e2,
    combine64_at _ _ _ _ i _ _ (selfWeight_apply x1 (i 0)) (biasRow64_apply x5 (i 1))]
  rfl

/-! ## The two layers -/

theorem hidden_eq (x0 : FVec Ideal Cert.KernelIdeal.S50000x128 .f32) (x1 : IVec Cert.KernelIdeal.S2x600000 32)
    (x2 : FVec Ideal Cert.KernelIdeal.S128x128 .f32) (x3 : FVec Ideal Cert.KernelIdeal.S128 .f32) :
    val_main_v53 (F := Ideal) x0 x1 x2 x3 = hidden x0 x1 x2 x3 := by
  rw [v53_eq, v44_eq, v4_eq]
  rfl

/-- The reference's result, as the function of its six arguments that its stages compose to, is the two layers. -/
theorem result_eq (x0 : FVec Ideal Cert.KernelIdeal.S50000x128 .f32) (x1 : IVec Cert.KernelIdeal.S2x600000 32)
    (x2 : FVec Ideal Cert.KernelIdeal.S128x128 .f32) (x3 : FVec Ideal Cert.KernelIdeal.S128 .f32)
    (x4 : FVec Ideal Cert.KernelIdeal.S128x64 .f32) (x5 : FVec Ideal Cert.KernelIdeal.S64 .f32) :
    Cert.ReferenceIdeal.Read.val_main_v102 (F := Ideal) x0 x1 x2 x3 x4 x5 = output x0 x1 x2 x3 x4 x5 := by
  rw [v102_eq, v94_eq, v54_eq, hidden_eq]
  rfl

end Cert.ReferenceIdeal.Layers

end
-- ==== Proof.lean ====
/-
  A two-layer graph convolution over 50000 nodes and 600000 edges, as a kernel program and as its reference:

    layer W b h = A (h W) + (h W) · r² + b,   r i = (1 + #{edges into i})^(-1/2),   A y [i, :] = Σ_{edges s → i} y[s, :] · r s · r i,

  result = layer W2 b2 (max (layer W1 b1 x) 0). The kernel program computes each `h W` in ten tiles of 5000 rows and each
  `A (hW) + (hW) · r² + b` (with the `max` in the first layer) in ten tiles of 5000 rows, the edge sums and the
  normalisation by host operations between them; the reference is host operations throughout. Over the extended reals
  the two are the same function of the six arguments, `Cert.Gcn.output`: a tile of a row-by-column product is the same
  sums as the whole product; a column or a row stretched over a tile is the column or row stretched over the array;
  and the gathers and scatter-adds are the same operations applied to equal arrays. No law of arithmetic beyond that
  is used, so the precondition (finite inputs) is never opened.

  The three frames are the programs' runs with the results dropped; the kernel program prints as its own idealization
  (no rewrite was applied), so `preserves` asks nothing.
-/
import proofs.«120619_j32916629357419_1_alg».proof.Defs
import proofs.«120619_j32916629357419_1_alg».proof.Proof.Gen.Kernel
import proofs.«120619_j32916629357419_1_alg».proof.Proof.Gen.Kernel.Skeleton
import proofs.«120619_j32916629357419_1_alg».proof.Proof.Gen.Kernel.Launch
import proofs.«120619_j32916629357419_1_alg».proof.Proof.Gen.Kernel.Points
import proofs.«120619_j32916629357419_1_alg».proof.Proof.Gen.Kernel.Frame
import proofs.«120619_j32916629357419_1_alg».proof.Proof.Gen.KernelIdeal
import proofs.«120619_j32916629357419_1_alg».proof.Proof.Gen.KernelIdeal.Skeleton
import proofs.«120619_j32916629357419_1_alg».proof.Proof.Gen.KernelIdeal.Launch
import proofs.«120619_j32916629357419_1_alg».proof.Proof.Gen.KernelIdeal.Points
import proofs.«120619_j32916629357419_1_alg».proof.Proof.Gen.KernelIdeal.Frame
import proofs.«120619_j32916629357419_1_alg».proof.Proof.Gen.ReferenceIdeal
import proofs.«120619_j32916629357419_1_alg».proof.Proof.Gen.Pre_finite_inputs
import proofs.«120619_j32916629357419_1_alg».proof.Proof.Gen.ReferenceIdeal.Run
import proofs.«120619_j32916629357419_1_alg».proof.Proof.Gen.ReferenceIdeal.Read
import proofs.«120619_j32916629357419_1_alg».proof.Proof.KernelRun
import proofs.«120619_j32916629357419_1_alg».proof.Proof.KernelLayers
import proofs.«120619_j32916629357419_1_alg».proof.Proof.ReferenceLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the two layers of those arguments in their
    result arrays: the kernel program's last boundary holds `output` of its arguments, the reference's composed stages
    are `output` of its own, and the arguments are the same arrays. -/
theorem algebraic : Cert.algebraic_KernelIdeal_ReferenceIdeal := by
  intro m ρ m' ρ' _ hagree
  refine ⟨fun c => Cert.Gcn.output (Cert.KernelIdeal.Layers.feat m c) (Cert.KernelIdeal.Layers.edges m c)
    (Cert.KernelIdeal.Layers.w1 m c) (Cert.KernelIdeal.Layers.b1 m c) (Cert.KernelIdeal.Layers.w2 m c)
    (Cert.KernelIdeal.Layers.b2 m c), ?_, ?_⟩
  · exact (θ_run Cert.KernelIdeal.defs _ _).mono
      (fun r h c => ⟨(h c).1.trans (Cert.KernelIdeal.Layers.result_7 m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v102_eq, (hagree c).1, (hagree c).2.1, (hagree c).2.2.1, (hagree c).2.2.2.1,
      (hagree c).2.2.2.2.1, (hagree c).2.2.2.2.2]
    exact Cert.ReferenceIdeal.Layers.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
